-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 83
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S_, .i32⟩
  | .hbm, ⟨66, _⟩ => ⟨S850000, .i32⟩
  | .hbm, ⟨67, _⟩ => ⟨S850000, .i1⟩
  | .hbm, ⟨68, _⟩ => ⟨S_, .i32⟩
  | .hbm, ⟨69, _⟩ => ⟨S850000, .i32⟩
  | .hbm, ⟨70, _⟩ => ⟨S850000, .i32⟩
  | .hbm, ⟨71, _⟩ => ⟨S850000, .i32⟩
  | .hbm, ⟨72, _⟩ => ⟨S850000x1, .i32⟩
  | .hbm, ⟨73, _⟩ => ⟨S850000x128, .f32⟩
  | .hbm, ⟨74, _⟩ => ⟨S850000x1, .f32⟩
  | .hbm, ⟨75, _⟩ => ⟨S850000x128, .f32⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000x128, .f32⟩
  | .hbm, ⟨91, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Agg.lean ====
/-
  The normalised neighbourhood sum, as ONE function.

  Both programs aggregate a `[50000, 128]` array `h` over the edge list in the same way: gather the row `h[src e]` of
  every edge `e` (a negative index first moved up by 50000, as array indexing does), scale it by the edge's coefficient,
  and add it into row `dst e` of a zero array. `aggOf src dst nrm h` is that chain of host operations with the index
  vectors and the coefficients as parameters; nothing below ever looks inside it. The reference applies it twice, to the
  two dense products (`ref_layer1`, `ref_layer2`), with `src`, `dst` and `nrm` the functions of the edge list that its
  first operations compute.
-/
import proofs.«153974_j57397942944071_1_alg».proof.Proof.RefRead

noncomputable section

namespace Cert.Gcn

open Cert.ReferenceIdeal Cert.ReferenceIdeal.Gen Cert.ReferenceIdeal.ReadP Idealize.ShloMosaic

variable {F : FTy → Type} [FloatOps F]

/-- Gather the source rows, scale each by its edge's coefficient, scatter-add into the destination rows. -/
def aggOf (src dst : (⟨S850000, .i32⟩ : BufTy).Contents (Elt F)) (nrm : (⟨S850000, .f32⟩ : BufTy).Contents (Elt F))
    (h : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant (F := F) S_ .f32 0x00000000#32))
    (broadcastInDim S850000x1 ![0] bcast_S850000_S850000x1_0 dst)
    (mulf
      (Host.gather gather_S50000x128_S850000x1_S850000x128_1_0_n_n_0_1_1128 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src)))
      (broadcastInDim S850000x128 ![0, 1] bcast_S850000x1_S850000x128_0_1
        (broadcastInDim S850000x1 ![0] bcast_S850000_S850000x1_0 nrm)))

/-- The reference's source indices, destination indices and edge coefficients, from the edge list. -/
abbrev srcOf (e : (⟨S2x800000, .i32⟩ : BufTy).Contents (Elt F)) := val_main_v3 (F := F) e
abbrev dstOf (e : (⟨S2x800000, .i32⟩ : BufTy).Contents (Elt F)) := val_main_v6 (F := F) e
abbrev nrmOf (e : (⟨S2x800000, .i32⟩ : BufTy).Contents (Elt F)) := val_main_v29 (F := F) e

/-- The aggregation over the edge list `e`. -/
def agg (e : (⟨S2x800000, .i32⟩ : BufTy).Contents (Elt F)) (h : (⟨S50000x128, .f32⟩ : BufTy).Contents (Elt F)) :
    (⟨S50000x128, .f32⟩ : BufTy).Contents (Elt F) :=
  aggOf (srcOf e) (dstOf e) (nrmOf e) h

/-- The reference's first aggregation is `agg` of its first dense product. -/
theorem ref_layer1 (x0 : (⟨S50000x128, .f32⟩ : BufTy).Contents (Elt F)) (x1 : (⟨S2x800000, .i32⟩ : BufTy).Contents (Elt F))
    (x2 : (⟨S128x128, .f32⟩ : BufTy).Contents (Elt F)) :
    val_main_v43 (F := F) x0 x1 x2 = agg x1 (val_main_v30 (F := F) x0 x2) := rfl

/-- The reference's second aggregation is `agg` of its second dense product. -/
theorem ref_layer2 (x0 : (⟨S50000x128, .f32⟩ : BufTy).Contents (Elt F)) (x1 : (⟨S2x800000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v61 (F := F) x0 x1 x2 x3 x4 = agg x1 (val_main_v48 (F := F) x0 x1 x2 x3 x4) := rfl

end Cert.Gcn

end
-- ==== Proof.Spec.lean ====
/-
  A two-layer graph convolution, layer by layer, at the ideal values.

  Both programs compute, for node features `x : [50000, 128]`, weights `w1, w2 : [128, 128]` and biases
  `b1, b2 : [128]`,

      relu (A (relu (A (x · w1) + b1) · w2) + b2),

  where `A` is the normalised neighbourhood sum over the edge list (a gather of rows, a scaling of every gathered row by
  its edge's coefficient, a scatter-add into the destination rows). `A` is the same chain of host operations in the two
  programs and is never opened here; what differs is who computes the dense pieces. This module names those pieces over
  the literal shapes:

  * `linear x w`: the product of an `[50000, 128]` array with a `[128, 128]` weight, entry `(r, c)` the sum over
    `k` of `x (r, k) * w (k, c)`;
  * `biasReluRow a b`: a bias given as a one-row array `[1, 128]` added to every row of `a`, then the maximum with
    zero, entry by entry;
  * `biasRelu a b`: the same with the bias given as a vector `[128]`.
-/
import Idealize.ShloMosaic.Lib.ValueIdx
import Idealize.ShloMosaic.PureOps.Ideal.Laws

noncomputable section

open scoped BigOperators

namespace Cert.Gcn

open Idealize.ShloMosaic Idealize.ShloMosaic.ValueIdx

/-- Node features: one row of 128 entries per node. -/
abbrev Nodes : Shape := ⟨2, ![50000, 128]⟩
/-- A layer's weight. -/
abbrev Weight : Shape := ⟨2, ![128, 128]⟩
/-- A bias laid out as a one-row array. -/
abbrev Row : Shape := ⟨2, ![1, 128]⟩
/-- A bias as a vector. -/
abbrev Bias : Shape := ⟨1, ![128]⟩

/-- The float zero both programs take the maximum with. -/
abbrev zero : EReal := Ideal.ofBits .f32 0x00000000#32

/-- The dense product: entry `(r, c)` is the sum over `k` of `x (r, k) * w (k, c)`. -/
def linear (x : FVec Ideal Nodes .f32) (w : FVec Ideal Weight .f32) : FVec Ideal Nodes .f32 :=
  fun i => ∑ k : Fin 128, x (ix2 (i 0) k) * w (ix2 k (i 1))

/-- A one-row bias added to every row, then the maximum with zero. -/
def biasReluRow (a : FVec Ideal Nodes .f32) (b : FVec Ideal Row .f32) : FVec Ideal Nodes .f32 :=
  fun i => max (a i + b (ix2 (0 : Fin 1) (i 1))) zero

/-- A bias vector added to every row, then the maximum with zero. -/
def biasRelu (a : FVec Ideal Nodes .f32) (b : FVec Ideal Bias .f32) : FVec Ideal Nodes .f32 :=
  fun i => max (a i + b (ix1 (i 1))) zero

theorem linear_apply (x : FVec Ideal Nodes .f32) (w : FVec Ideal Weight .f32) (i : Nodes.Idx) :
    linear x w i = ∑ k : Fin 128, x (ix2 (i 0) k) * w (ix2 k (i 1)) := rfl

theorem biasReluRow_apply (a : FVec Ideal Nodes .f32) (b : FVec Ideal Row .f32) (i : Nodes.Idx) :
    biasReluRow a b i = max (a i + b (ix2 (0 : Fin 1) (i 1))) zero := rfl

theorem biasRelu_apply (a : FVec Ideal Nodes .f32) (b : FVec Ideal Bias .f32) (i : Nodes.Idx) :
    biasRelu a b i = max (a i + b (ix1 (i 1))) zero := rfl

/-- A one-row bias whose entry `(0, q)` is the vector's entry `q` gives the same layer as the vector. -/
theorem biasReluRow_eq_biasRelu (a : FVec Ideal Nodes .f32) (b : FVec Ideal Row .f32) (v : FVec Ideal Bias .f32)
    (h : ∀ q : Fin 128, b (ix2 (0 : Fin 1) q) = v (ix1 q)) : biasReluRow a b = biasRelu a v := by
  funext i
  rw [biasReluRow_apply, biasRelu_apply]
  exact congrArg (fun z => max (a i + z) zero) (h (i 1))

end Cert.Gcn

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«153974_j57397942944071_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.RefValue.lean ====
/-
  The reference's result, layer by layer, at the ideal values.

  The reference's two `dot_general`s are the dense product `linear` (each output entry the sum over the shared axis, in
  the same order as the kernel's products), its bias additions and `relu`s are `biasRelu`, and between them it applies
  the aggregation `agg` twice. So its result is

      biasRelu (agg e (linear (biasRelu (agg e (linear x w1)) b1) w2)) b2.
-/
import proofs.«153974_j57397942944071_1_alg».proof.Proof.Agg
import proofs.«153974_j57397942944071_1_alg».proof.Proof.Spec
import proofs.«153974_j57397942944071_1_alg».proof.Proof.LibPlainDotAny

noncomputable section

namespace Cert.Gcn

open Cert.ReferenceIdeal Cert.ReferenceIdeal.Gen Cert.ReferenceIdeal.ReadP Idealize.ShloMosaic Idealize.ShloMosaic.ValueIdx

/-- The whole network as one function of the arguments: two rounds of product, aggregation, bias and `relu`. -/
def network (x : FVec Ideal Nodes .f32) (e : (⟨S2x800000, .i32⟩ : BufTy).Contents (Elt Ideal)) (w1 : FVec Ideal Weight .f32)
    (b1 : FVec Ideal Bias .f32) (w2 : FVec Ideal Weight .f32) (b2 : FVec Ideal Bias .f32) : FVec Ideal Nodes .f32 :=
  biasRelu (agg (F := Ideal) e (linear (biasRelu (agg (F := Ideal) e (linear x w1)) b1) w2)) b2

/-- The host's product of an `[50000, 128]` array with a `[128, 128]` weight is `linear`. -/
theorem dot_eq_linear (y : FVec Ideal S50000x128 .f32) (w : FVec Ideal S128x128 .f32) :
    Host.dotGeneral (F := Ideal) dot_S50000x128_S128x128_S50000x128_1_0_0_1_n_n none y w = linear y w := by
  funext i
  simp only [Host.dotGeneral]
  exact PlainDot.dotGeneral_apply_any 50000 128 128 none _ y w i

/-- The host's bias addition (the vector laid as a row and repeated down the rows) followed by `relu` is `biasRelu`. -/
theorem addRelu_eq (a : FVec Ideal S50000x128 .f32) (b : FVec Ideal S128 .f32) :
    maximumf (addf a (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32))
      = biasRelu a b := by
  funext i
  rw [biasRelu_apply, maximumf_apply, addf_apply]
  have e1 : broadcastInDim S50000x128 ![0, 1] bcast_S1x128_S50000x128_0_1 (broadcastInDim S1x128 ![1] bcast_S128_S1x128_1 b) i = b (ix1 (i 1)) := by
    refine (val_main_v45_apply (F := Ideal) b i).trans ((val_main_v44_apply (F := Ideal) b (idx_main_v45 i)).trans ?_)
    refine congrArg b (funext fun a => ?_)
    match a with
    | ⟨0, _⟩ => rfl
  have e2 : broadcastInDim S50000x128 ![] bcast_S_S50000x128 (constant (F := Ideal) S_ .f32 0x00000000#32) i = zero := by
    exact (val_main_call1_v0_apply (F := Ideal) i).trans (val_main_call1_cst_apply (F := Ideal) _)
  rw [e1, e2]

/-- The reference's result is the network of its arguments. -/
theorem ref_result (x0 : FVec Ideal S50000x128 .f32) (x1 : (⟨S2x800000, .i32⟩ : BufTy).Contents (Elt Ideal))
    (x2 : FVec Ideal S128x128 .f32) (x3 : FVec Ideal S128 .f32) (x4 : FVec Ideal S128x128 .f32) (x5 : FVec Ideal S128 .f32) :
    val_main_v65 (F := Ideal) x0 x1 x2 x3 x4 x5 = network x0 x1 x2 x3 x4 x5 := by
  have l1 : val_main_v30 (F := Ideal) x0 x2 = linear x0 x2 := dot_eq_linear x0 x2
  have r1 : val_main_v47 (F := Ideal) x0 x1 x2 x3 = biasRelu (agg (F := Ideal) x1 (linear x0 x2)) x3 := by
    rw [← l1, ← ref_layer1]
    exact addRelu_eq _ x3
  have l2 : val_main_v48 (F := Ideal) x0 x1 x2 x3 x4 = linear (biasRelu (agg (F := Ideal) x1 (linear x0 x2)) x3) x4 := by
    rw [← r1]
    exact dot_eq_linear _ x4
  unfold network
  rw [← l2, ← ref_layer2]
  exact addRelu_eq _ x5

end Cert.Gcn

end
-- ==== Proof.KernelHost.lean ====
/-
  The kernel program's host stretches, read at the buffers the regions take.

  Before its first region the kernel program computes, by the same operations as the reference, the source indices,
  the destination indices and the edge coefficients from the edge list; between the regions it applies the aggregation
  chain to the array the region before has written, and recasts the next bias as a one-row array. Each lemma reads one
  buffer at one boundary of the run, as the boundary before it at the buffers the stretch reads: the index vectors and the
  coefficients are carried unchanged through every later stretch and region, and so are the arguments.
-/
import proofs.«153974_j57397942944071_1_alg».proof.Proof.Gen.KernelIdeal.Frame
import proofs.«153974_j57397942944071_1_alg».proof.Proof.Agg
import Idealize.ShloMosaic.Lib.StableHlo.Run

set_option maxRecDepth 16384

noncomputable section

namespace Cert.Gcn.KernelHost

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Up to the first region -/

/-- The source indices at the first region's entry are the reference's function of the edge list. -/
theorem src_entry (c : Dev nD) :
    W3 m ρ c (Proc.devRef .tc main_v3) = Cert.Gcn.srcOf (F := F) (m ((c.tc : Thread nD τ).loc main_arg1)) := by
  show StableHlo.after hostOps0_2 (StableHlo.after hostOps0_1 (StableHlo.after hostOps0 (W0 m ρ c))) (Proc.devRef .tc main_v3) = _
  after_results
  rfl

/-- The destination indices at the first region's entry are the reference's function of the edge list. -/
theorem dst_entry (c : Dev nD) :
    W3 m ρ c (Proc.devRef .tc main_v6) = Cert.Gcn.dstOf (F := F) (m ((c.tc : Thread nD τ).loc main_arg1)) := by
  show StableHlo.after hostOps0_2 (StableHlo.after hostOps0_1 (StableHlo.after hostOps0 (W0 m ρ c))) (Proc.devRef .tc main_v6) = _
  after_results
  rfl

set_option maxHeartbeats 2000000 in
/-- The edge coefficients at the first region's entry are the reference's function of the edge list. -/
theorem nrm_entry (c : Dev nD) :
    W3 m ρ c (Proc.devRef .tc main_v29) = Cert.Gcn.nrmOf (F := F) (m ((c.tc : Thread nD τ).loc main_arg1)) := by
  show StableHlo.after hostOps0_2 (StableHlo.after hostOps0_1 (StableHlo.after hostOps0 (W0 m ρ c))) (Proc.devRef .tc main_v29) = _
  after_results_simp
  rfl

/-- Argument 0 is as launched at the first region's entry. -/
theorem arg0_entry (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results

/-- Argument 2 is as launched at the first region's entry. -/
theorem arg2_entry (c : Dev nD) : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results

/-- Argument 3 is as launched at the first region's entry. -/
theorem arg3_entry (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results

/-- Argument 4 is as launched at the first region's entry. -/
theorem arg4_entry (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results

/-- Argument 5 is as launched at the first region's entry. -/
theorem arg5_entry (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results

/-! ## Across the first region: only its output array changes -/

theorem v3_r0 (c : Dev nD) : W4 m ρ c (Proc.devRef .tc main_v3) = W3 m ρ c (Proc.devRef .tc main_v3) :=
  W4_of_ne m ρ c main_v3 (by decide)
theorem v6_r0 (c : Dev nD) : W4 m ρ c (Proc.devRef .tc main_v6) = W3 m ρ c (Proc.devRef .tc main_v6) :=
  W4_of_ne m ρ c main_v6 (by decide)
theorem v29_r0 (c : Dev nD) : W4 m ρ c (Proc.devRef .tc main_v29) = W3 m ρ c (Proc.devRef .tc main_v29) :=
  W4_of_ne m ρ c main_v29 (by decide)
theorem arg3_r0 (c : Dev nD) : W4 m ρ c (Proc.devRef .tc main_arg3) = W3 m ρ c (Proc.devRef .tc main_arg3) :=
  W4_of_ne m ρ c main_arg3 (by decide)
theorem arg4_r0 (c : Dev nD) : W4 m ρ c (Proc.devRef .tc main_arg4) = W3 m ρ c (Proc.devRef .tc main_arg4) :=
  W4_of_ne m ρ c main_arg4 (by decide)
theorem arg5_r0 (c : Dev nD) : W4 m ρ c (Proc.devRef .tc main_arg5) = W3 m ρ c (Proc.devRef .tc main_arg5) :=
  W4_of_ne m ρ c main_arg5 (by decide)

/-! ## The stretch between the first two regions -/

set_option maxHeartbeats 2000000 in
/-- The first aggregation: the chain applied to what the first region wrote. -/
theorem agg_s1 (c : Dev nD) :
    W5 m ρ c (Proc.devRef .tc main_v43)
      = Cert.Gcn.aggOf (F := F) (W4 m ρ c (Proc.devRef .tc main_v3)) (W4 m ρ c (Proc.devRef .tc main_v6))
          (W4 m ρ c (Proc.devRef .tc main_v29)) (W4 m ρ c (Proc.devRef .tc main_v30)) := by
  show StableHlo.after hostOps1 (W4 m ρ c) (Proc.devRef .tc main_v43) = _
  after_results_simp
  rfl

/-- The first bias recast as a one-row array. -/
theorem row_s1 (c : Dev nD) :
    W5 m ρ c (Proc.devRef .tc main_v44) = shapeCast S1x128 (W4 m ρ c (Proc.devRef .tc main_arg3)) shapeCasts_S128_S1x128 := by
  show StableHlo.after hostOps1 (W4 m ρ c) (Proc.devRef .tc main_v44) = _
  after_results
  rfl

theorem v3_s1 (c : Dev nD) : W5 m ρ c (Proc.devRef .tc main_v3) = W4 m ρ c (Proc.devRef .tc main_v3) := by
  show StableHlo.after hostOps1 (W4 m ρ c) (Proc.devRef .tc main_v3) = _
  after_results
theorem v6_s1 (c : Dev nD) : W5 m ρ c (Proc.devRef .tc main_v6) = W4 m ρ c (Proc.devRef .tc main_v6) := by
  show StableHlo.after hostOps1 (W4 m ρ c) (Proc.devRef .tc main_v6) = _
  after_results
theorem v29_s1 (c : Dev nD) : W5 m ρ c (Proc.devRef .tc main_v29) = W4 m ρ c (Proc.devRef .tc main_v29) := by
  show StableHlo.after hostOps1 (W4 m ρ c) (Proc.devRef .tc main_v29) = _
  after_results
theorem arg4_s1 (c : Dev nD) : W5 m ρ c (Proc.devRef .tc main_arg4) = W4 m ρ c (Proc.devRef .tc main_arg4) := by
  show StableHlo.after hostOps1 (W4 m ρ c) (Proc.devRef .tc main_arg4) = _
  after_results
theorem arg5_s1 (c : Dev nD) : W5 m ρ c (Proc.devRef .tc main_arg5) = W4 m ρ c (Proc.devRef .tc main_arg5) := by
  show StableHlo.after hostOps1 (W4 m ρ c) (Proc.devRef .tc main_arg5) = _
  after_results

/-! ## Across the second region -/

theorem v3_r1 (c : Dev nD) : W6 m ρ c (Proc.devRef .tc main_v3) = W5 m ρ c (Proc.devRef .tc main_v3) :=
  W6_of_ne m ρ c main_v3 (by decide)
theorem v6_r1 (c : Dev nD) : W6 m ρ c (Proc.devRef .tc main_v6) = W5 m ρ c (Proc.devRef .tc main_v6) :=
  W6_of_ne m ρ c main_v6 (by decide)
theorem v29_r1 (c : Dev nD) : W6 m ρ c (Proc.devRef .tc main_v29) = W5 m ρ c (Proc.devRef .tc main_v29) :=
  W6_of_ne m ρ c main_v29 (by decide)
theorem arg5_r1 (c : Dev nD) : W6 m ρ c (Proc.devRef .tc main_arg5) = W5 m ρ c (Proc.devRef .tc main_arg5) :=
  W6_of_ne m ρ c main_arg5 (by decide)

/-! ## The stretch between the last two regions -/

set_option maxHeartbeats 2000000 in
/-- The second aggregation: the chain applied to what the second region wrote. -/
theorem agg_s2 (c : Dev nD) :
    W7 m ρ c (Proc.devRef .tc main_v58)
      = Cert.Gcn.aggOf (F := F) (W6 m ρ c (Proc.devRef .tc main_v3)) (W6 m ρ c (Proc.devRef .tc main_v6))
          (W6 m ρ c (Proc.devRef .tc main_v29)) (W6 m ρ c (Proc.devRef .tc main_v45)) := by
  show StableHlo.after hostOps2 (W6 m ρ c) (Proc.devRef .tc main_v58) = _
  after_results_simp
  rfl

/-- The second bias recast as a one-row array. -/
theorem row_s2 (c : Dev nD) :
    W7 m ρ c (Proc.devRef .tc main_v59) = shapeCast S1x128 (W6 m ρ c (Proc.devRef .tc main_arg5)) shapeCasts_S128_S1x128 := by
  show StableHlo.after hostOps2 (W6 m ρ c) (Proc.devRef .tc main_v59) = _
  after_results
  rfl

end Cert.Gcn.KernelHost

end
-- ==== Proof.Region0.lean ====
import proofs.«153974_j57397942944071_1_alg».proof.Proof.Gen.KernelIdeal.Frame
import proofs.«153974_j57397942944071_1_alg».proof.Proof.Spec
import proofs.«153974_j57397942944071_1_alg».proof.Proof.LibPlainDotAny
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.Gcn.Region0

open Cert.KernelIdeal Cert.KernelIdeal.Gen Idealize.ShloMosaic.ValueIdx

variable (V : (c : Dev nD) → (b : Ref sig .tc) → Buf (Elt Ideal) ((c : Thread nD τ).loc b))

/-! The first dense layer's product, read off the ten row blocks.

The region multiplies the features `x : [50000, 128]` by the weight `w : [128, 128]`, 5000 rows at a time: at point `t` of
its ten points it takes rows `5000 t … 5000 t + 4999` of `x` and all of `w`, and writes their product back as the same rows
of the result. Entry `(p, q)` of that block is the sum over `k` of `x (5000 t + p, k) * w (k, q)`; row `r` of the result
lies in the block of point `r / 5000`; so the whole result is `linear x w`. -/

/-- The zero offsets of a whole-block access. -/
theorem hz : (![0, 0] : Fin 2 → Nat) = fun _ => 0 := funext fun a => by fin_cases a <;> rfl

/-- The body's product at an entry: the block's row against the weight's column. -/
theorem pay_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Idealize.ShloMosaic.PlainDot.matmul_zero_apply_any 5000 128 128 none _ _ (ix2 p q)

/-- The index maps over the ten points: the row blocks of the features and of the result move with the point, the weight is
    one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the features' block at point `t` is row `5000 t + p` of the features. -/
theorem xblk_apply (c : Dev nD) (t : Fin cfg0.N) (p : Fin 5000) (k : Fin 128) (i : S50000x128.Idx)
    (h0 : (i 0).val = t.val * 5000 + p.val) (h1 : (i 1).val = k.val) :
    (iblk0 V c 0 t : Vec Ideal S5000x128 .f32) (ix2 p k) = (V c main_arg0 : S50000x128.Idx → EReal) i := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 5000 + 1 * (p : Nat) = (i 0).val; rw [e0, h0]; omega
  | ⟨1, _⟩ => show win0_0.index t (1 : Fin 2) * 128 + 1 * (k : Nat) = (i 1).val; rw [e1, h1]; omega

/-- The weight's block at every point is the weight. -/
theorem wblk_apply (c : Dev nD) (t : Fin cfg0.N) (k q : Fin 128) :
    (iblk0 V c 1 t : Vec Ideal S128x128 .f32) (ix2 k q) = (V c main_arg2 : S128x128.Idx → EReal) (ix2 k q) := by
  obtain ⟨-, -, e0, e1, -⟩ := idx_facts t
  unfold iblk0
  rw [View.read_apply]
  show V c main_arg2 _ = V c main_arg2 _
  congr 1
  funext a; apply Fin.ext
  match a with
  | ⟨0, _⟩ => show win0_1.index t (0 : Fin 2) * 128 + 1 * (k : Nat) = (k : Nat); rw [e0]; omega
  | ⟨1, _⟩ => show win0_1.index t (1 : Fin 2) * 128 + 1 * (q : Nat) = (q : Nat); rw [e1]; omega

/-- Entry `(p, q)` of the result's block at point `t` sits at row `5000 t + p`, column `q` of the result. -/
theorem oblk_emb (t : Fin cfg0.N) (p : Fin 5000) (q : Fin 128) (r : Fin 50000) (hr : r.val = t.val * 5000 + p.val) :
    ((cfg0.win 2).blk t).view.emb (ix2 p q) = (ix2 r q : S50000x128.Idx) := by
  obtain ⟨-, -, -, -, e0, e1⟩ := idx_facts t
  funext a; apply Fin.ext
  match a with
  | ⟨0, _⟩ => show win0_2.index t (0 : Fin 2) * 5000 + 1 * (p : Nat) = (r : Nat); rw [e0, hr]; omega
  | ⟨1, _⟩ => show win0_2.index t (1 : Fin 2) * 128 + 1 * (q : Nat) = (q : Nat); rw [e1]; omega

/-- What point `t` writes back is block `t` of the product of the features with the weight. -/
theorem flushed_eq (c : Dev nD) (t : Fin cfg0.N) :
    (dat0 V c).flushed 2 t
      = ((cfg0.win 2).blk t).view.read (Elt Ideal) (Cert.Gcn.linear (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  funext j
  show k0_pay1 (iblk0 V c 0 t) (iblk0 V c 1 t) j
    = Cert.Gcn.linear (V c main_arg0) (V c main_arg2) (((cfg0.win 2).blk t).view.emb j)
  obtain ⟨p, q, rfl⟩ : ∃ (p : Fin 5000) (q : Fin 128), j = ix2 p q := ⟨j 0, j 1, eq_ix2 j⟩
  have ht : t.val < 10 := lt_of_lt_of_eq t.isLt N_0
  have hp : p.val < 5000 := p.isLt
  rw [oblk_emb t p q ⟨t.val * 5000 + p.val, by omega⟩ rfl, Cert.Gcn.linear_apply]
  refine (pay_apply (iblk0 V c 0 t) (iblk0 V c 1 t) p q).trans ?_
  refine Finset.sum_congr rfl fun k _ => ?_
  rw [xblk_apply V c t p k (ix2 ⟨t.val * 5000 + p.val, by omega⟩ k) rfl rfl, wblk_apply V c t k q]

/-- Every entry of the result lies in the block of the point its row falls in: row `r` in block `r / 5000`. -/
theorem cover (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have ht : (i 0).val / 5000 < cfg0.N := lt_of_lt_of_eq (by omega) N_0.symm
  obtain ⟨-, -, -, -, e0, e1⟩ := idx_facts ⟨(i 0).val / 5000, ht⟩
  refine ⟨⟨(i 0).val / 5000, ht⟩, flush0_2 _, ?_⟩
  show i ∈ ((View.whole main_v30).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e1]
    omega

/-- After the region the result array is the product of the features with the weight: the ten row blocks, each the
    product of its rows with the weight, fill it. -/
theorem value (c : Dev nD) :
    (dat0 (F := Ideal) V c).arrAt 2 cfg0.N = Cert.Gcn.linear (V c main_arg0) (V c main_arg2) :=
  (dat0 V c).arrAt_eq_of_cover 2 _ (fun t _ => flushed_eq V c t) cover

end Cert.Gcn.Region0

end
-- ==== Proof.Region1.lean ====
import proofs.«153974_j57397942944071_1_alg».proof.Proof.Gen.KernelIdeal.Frame
import proofs.«153974_j57397942944071_1_alg».proof.Proof.Spec
import proofs.«153974_j57397942944071_1_alg».proof.Proof.LibPlainDotAny
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

/-! The fused middle layer, read off the ten row blocks: at every point the body adds the one-row bias to its block of
    the first aggregate, takes the maximum with zero and multiplies by the whole second weight, so the output's row block
    is that block of `linear (biasReluRow aggregate bias) weight`; the blocks cover the output. -/

namespace Cert.Gcn.Region1

open Cert.KernelIdeal Cert.KernelIdeal.Gen Idealize.ShloMosaic.ValueIdx

variable (V : (c : Dev nD) → (b : Ref sig .tc) → Buf (Elt Ideal) ((c : Thread nD τ).loc b))

open scoped BigOperators

/-- The one-row bias broadcast to the block's shape reads, at row `p` and lane `k`, the row's entry `(0, k)`. -/
theorem bias_row_at (x : Vec Ideal S1x128 .f32) (p : Fin 5000) (k : Fin 128) :
    broadcastTo S5000x128 x broadcasts_S1x128_S5000x128 (ix2 p k) = x (ix2 (0 : Fin 1) k) := by
  refine broadcastTo_apply x broadcasts_S1x128_S5000x128 (ix2 p k) (ix2 (0 : Fin 1) k) fun a => ?_
  match a with
  | ⟨0, _⟩ => rfl
  | ⟨1, _⟩ => rfl

/-- The body's arithmetic at an entry `(p, q)` of a block: the sum over the shared axis `k` of
    `max (x0 (p, k) + x1 (0, k)) 0 * x2 (k, q)`. Narrowing the product's operands changes nothing at the ideal
    values, and the product runs into a zero accumulator. -/
theorem payload_at (x0 : Vec Ideal S5000x128 .f32) (x1 : Vec Ideal S1x128 .f32) (x2 : Vec Ideal S128x128 .f32)
    (p : Fin 5000) (q : Fin 128) :
    k1_pay1 x0 x1 x2 (ix2 p q)
      = ∑ k : Fin 128, max (x0 (ix2 p k) + x1 (ix2 (0 : Fin 1) k)) Cert.Gcn.zero * x2 (ix2 k q) := by
  unfold k1_pay1
  refine (Idealize.ShloMosaic.PlainDot.matmul_zero_apply_any 5000 128 128 none _ _ (ix2 p q)).trans ?_
  refine Finset.sum_congr rfl fun k _ => ?_
  show max (shapeCast S5000x128 x0 shapeCasts_S5000x128_S5000x128 (ix2 p k)
      + broadcastTo S5000x128 (shapeCast S1x128 x1 shapeCasts_S1x128_S1x128) broadcasts_S1x128_S5000x128 (ix2 p k))
        Cert.Gcn.zero * x2 (ix2 k q) = _
  rw [shapeCast_self, shapeCast_self, bias_row_at]

/-- The zero offsets of a whole-block access, however they are spelt. -/
theorem hz : (![0, 0] : Fin 2 → Nat) = fun _ => 0 := funext fun a => by fin_cases a <;> rfl

/-- The index maps over the grid of ten points: the row blocks of the aggregate and of the output are at `(t, 0)`,
    the bias row and the weight are whole, at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregate's block at point `t` is row `5000 t + p` of the aggregate. -/
theorem agg_block_at (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = (V c main_v43 : S50000x128.Idx → EReal) i := by
  obtain ⟨e0, e1, -⟩ := idx_facts t
  unfold iblk1
  rw [View.read_apply]
  show V c main_v43 _ = V c main_v43 _
  congr 1
  funext a
  apply Fin.ext
  match a with
  | ⟨0, _⟩ => show win1_0.index t (0 : Fin 2) * 5000 + 1 * p.val = (i 0).val; omega
  | ⟨1, _⟩ => show win1_0.index t (1 : Fin 2) * 128 + 1 * k.val = (i 1).val; omega

/-- The bias row's block at every point is the whole row. -/
theorem bias_block_at (c : Dev nD) (t : Fin cfg1.N) (k : Fin 128) :
    (iblk1 V c 1 t : Vec Ideal S1x128 .f32) (ix2 (0 : Fin 1) k) = (V c main_v44 : S1x128.Idx → EReal) (ix2 (0 : Fin 1) k) := by
  obtain ⟨-, -, e0, e1, -⟩ := idx_facts t
  unfold iblk1
  rw [View.read_apply]
  show V c main_v44 _ = V c main_v44 _
  congr 1
  funext a
  apply Fin.ext
  match a with
  | ⟨0, _⟩ => show win1_1.index t (0 : Fin 2) * 1 + 1 * 0 = 0; omega
  | ⟨1, _⟩ => show win1_1.index t (1 : Fin 2) * 128 + 1 * k.val = k.val; omega

/-- The weight's block at every point is the whole weight. -/
theorem weight_block_at (c : Dev nD) (t : Fin cfg1.N) (k q : Fin 128) :
    (iblk1 V c 2 t : Vec Ideal S128x128 .f32) (ix2 k q) = (V c main_arg4 : S128x128.Idx → EReal) (ix2 k q) := by
  obtain ⟨-, -, -, -, e0, e1, -⟩ := idx_facts t
  unfold iblk1
  rw [View.read_apply]
  show V c main_arg4 _ = V c main_arg4 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- What point `t` writes back is block `t` of the layer's value: entry `(p, q)` of the block is the body's sum over
    the input blocks, row `p` of the aggregate's block is row `5000 t + p` of the aggregate, where the output block's
    row `p` lies too, and the bias row and the weight are read whole. -/
theorem flushed_eq (c : Dev nD) (t : Fin cfg1.N) :
    (dat1 (F := Ideal) V c).flushed 3 t
      = ((cfg1.win 3).blk t).view.read (Elt Ideal)
          (Cert.Gcn.linear (Cert.Gcn.biasReluRow (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = Cert.Gcn.linear (Cert.Gcn.biasReluRow (V c main_v43) (V c main_v44)) (V c main_arg4) (((cfg1.win 3).blk t).view.emb (ix2 p q))
  refine (payload_at (iblk1 V c 0 t) (iblk1 V c 1 t) (iblk1 V c 2 t) p q).trans ?_
  rw [Cert.Gcn.linear_apply]
  refine Finset.sum_congr rfl fun k _ => ?_
  rw [Cert.Gcn.biasReluRow_apply]
  obtain ⟨-, -, -, -, -, -, e0, e1⟩ := idx_facts t
  have hr : ((((cfg1.win 3).blk t).view.emb (ix2 p q)) 0).val = t.val * 5000 + p.val := by
    show win1_3.index t (0 : Fin 2) * 5000 + 1 * p.val = _
    omega
  have hq : (((cfg1.win 3).blk t).view.emb (ix2 p q)) 1 = q :=
    Fin.ext (by show win1_3.index t (1 : Fin 2) * 128 + 1 * q.val = q.val; omega)
  rw [agg_block_at V c t p k (ix2 ((((cfg1.win 3).blk t).view.emb (ix2 p q)) 0) k) hr rfl, bias_block_at V c t k,
    weight_block_at V c t k q, hq]

/-- Every entry of the output lies in some point's block: row `r` in the block of point `r / 5000`. -/
theorem cover (i : S50000x128.Idx) :
    ∃ t : Fin cfg1.N, (cfg1.win 3).flush t = true ∧ i ∈ ((cfg1.win 3).blk t).view.set := by
  have h0 : (i 0).val < 50000 := (i 0).isLt
  have h1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, e0, e1⟩ := idx_facts t
  refine ⟨t, flush1_3 t, ?_⟩
  show i ∈ ((View.whole main_v45).slice (win1_3.rect t)).set
  rw [View.set_slice_whole, Rect.mem_set_unit]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- After the region the output holds, at `(r, c)`, the sum over `k` of `max (agg (r, k) + b (0, k)) 0 * w (k, c)`: every
    point writes back its block of that array, and the ten blocks cover it. -/
theorem value (c : Dev nD) :
    (dat1 (F := Ideal) V c).arrAt 3 cfg1.N
      = Cert.Gcn.linear (Cert.Gcn.biasReluRow (V c main_v43) (V c main_v44)) (V c main_arg4) :=
  (dat1 (F := Ideal) V c).arrAt_eq_of_cover 3 _ (fun t _ => flushed_eq V c t) cover

end Cert.Gcn.Region1

end
-- ==== Proof.Region2.lean ====
import proofs.«153974_j57397942944071_1_alg».proof.Proof.Gen.KernelIdeal.Frame
import proofs.«153974_j57397942944071_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

/-! The last layer, read off the ten row blocks: at every point the body adds the one-row bias to its block of the
    second aggregate and takes the maximum with zero, entry by entry, so the output's row block is that block of
    `biasReluRow aggregate bias`; the blocks cover the output. -/

namespace Cert.Gcn.Region2

open Cert.KernelIdeal Cert.KernelIdeal.Gen Idealize.ShloMosaic.ValueIdx

variable (V : (c : Dev nD) → (b : Ref sig .tc) → Buf (Elt Ideal) ((c : Thread nD τ).loc b))

/-- The zero offsets of a whole-buffer access. -/
theorem hz : (![0, 0] : Fin 2 → Nat) = fun _ => 0 := funext fun a => by fin_cases a <;> rfl

/-- The body's arithmetic at an entry: the block's entry plus the bias row's entry of the same column, then the
    maximum with zero. -/
theorem pay_apply (x0 : Vec Ideal S5000x128 .f32) (x1 : Vec Ideal S1x128 .f32) (p : Fin 5000) (q : Fin 128) :
    k2_pay1 x0 x1 (ix2 p q) = max (x0 (ix2 p q) + x1 (ix2 (0 : Fin 1) q)) Cert.Gcn.zero := by
  unfold k2_pay1
  rw [shapeCast_self, shapeCast_self, maximumf_apply, addf_apply, broadcast_apply]
  rw [broadcastTo_apply x1 _ (ix2 p q) (ix2 (0 : Fin 1) q) (fun a => by
    match a with
    | ⟨0, _⟩ => rfl
    | ⟨1, _⟩ => rfl)]
  rfl

/-- The printed index maps over the grid: the row blocks of the aggregate and of the output sit at block (t, 0), the
    bias row is whole at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The aggregate's block at point `t` reads the array where the output's block does. -/
theorem agg_blk (c : Dev nD) (t : Fin cfg2.N) (j : S5000x128.Idx) :
    iblk2 V c 0 t j = V c main_v58 (((cfg2.win 2).blk t).view.emb j) := by
  obtain ⟨e0, e1, e2, e3, e4, e5⟩ := idx_facts t
  show V c main_v58 (((cfg2.win 0).blk t).view.emb j) = V c main_v58 (((cfg2.win 2).blk t).view.emb j)
  refine congrArg (V c main_v58) (funext fun a => Fin.ext ?_)
  match a with
  | ⟨0, _⟩ => show win2_0.index t (0 : Fin 2) * 5000 + 1 * (j 0).val = win2_2.index t (0 : Fin 2) * 5000 + 1 * (j 0).val; omega
  | ⟨1, _⟩ => show win2_0.index t (1 : Fin 2) * 128 + 1 * (j 1).val = win2_2.index t (1 : Fin 2) * 128 + 1 * (j 1).val; omega

/-- The bias row's block at any point is the whole row. -/
theorem bias_blk (c : Dev nD) (t : Fin cfg2.N) (j : S1x128.Idx) :
    iblk2 V c 1 t j = V c main_v59 j := by
  obtain ⟨e0, e1, e2, e3, e4, e5⟩ := idx_facts t
  show V c main_v59 (((cfg2.win 1).blk t).view.emb j) = V c main_v59 j
  refine congrArg (V c main_v59) (funext fun a => Fin.ext ?_)
  match a with
  | ⟨0, _⟩ => show win2_1.index t (0 : Fin 2) * 1 + 1 * (j 0).val = (j 0).val; omega
  | ⟨1, _⟩ => show win2_1.index t (1 : Fin 2) * 128 + 1 * (j 1).val = (j 1).val; omega

/-- The second coordinate of an entry of the output's block at point `t` is its column inside the block. -/
theorem out_col (t : Fin cfg2.N) (j : S5000x128.Idx) :
    (((cfg2.win 2).blk t).view.emb j) 1 = j 1 := by
  obtain ⟨e0, e1, e2, e3, e4, e5⟩ := idx_facts t
  apply Fin.ext
  show win2_2.index t (1 : Fin 2) * 128 + 1 * (j 1).val = (j 1).val
  omega

/-- What point `t` writes back is block `t` of the bias-and-relu layer of the arrays the region finds. -/
theorem flushed_eq (c : Dev nD) (t : Fin cfg2.N) :
    (dat2 (F := Ideal) V c).flushed 2 t
      = ((cfg2.win 2).blk t).view.read (Elt Ideal) (Cert.Gcn.biasReluRow (V c main_v58) (V c main_v59)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  funext j
  obtain ⟨p, q, rfl⟩ : ∃ (p : Fin 5000) (q : Fin 128), j = ix2 p q := ⟨j 0, j 1, eq_ix2 j⟩
  show k2_pay1 (iblk2 V c 0 t) (iblk2 V c 1 t) (ix2 p q)
    = Cert.Gcn.biasReluRow (V c main_v58) (V c main_v59) (((cfg2.win 2).blk t).view.emb (ix2 p q))
  rw [pay_apply, Cert.Gcn.biasReluRow_apply, agg_blk, bias_blk, out_col]

/-- Every entry of the array is in some point's block: row `r` is in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have ht : t.val = (i 0).val / 5000 := rfl
  obtain ⟨e0, e1, e2, e3, e4, e5⟩ := idx_facts t
  refine ⟨t, flush2_2 t, ?_⟩
  show i ∈ ((View.whole main_v60).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 the output array holds the bias-and-relu layer of the aggregate and the bias row it found. -/
theorem value (c : Dev nD) :
    (dat2 (F := Ideal) V c).arrAt 2 cfg2.N = Cert.Gcn.biasReluRow (V c main_v58) (V c main_v59) :=
  (dat2 V c).arrAt_eq_of_cover 2 _ (fun t _ => flushed_eq V c t) cover

end Cert.Gcn.Region2

end
-- ==== Proof.LibRowOfVector.lean ====
/-
  A vector recast as a one-row matrix, read at an index.

  Recasting an `[n]` vector as a `[1, n]` array keeps the row-major order, so the entry at `(0, i)` is the vector's
  entry `i`.
-/
import Idealize.ShloMosaic.Lib.ValueIdx
import Idealize.ShloMosaic.Lib.Pipeline.Value

noncomputable section

namespace Idealize.ShloMosaic.RowOfVector

open Idealize.ShloMosaic Idealize.ShloMosaic.ValueIdx

variable {α : Type} {n : Nat}

/-- The one-row recast of a vector at `(0, i)` is the vector at `i`. -/
theorem apply (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h (ix2 (0 : Fin 1) i) (ix1 i) ?_
  rw [Shape.rowMajor_val_one, Shape.rowMajor_val_two]
  show i.val = 0 * n + i.val
  omega

end Idealize.ShloMosaic.RowOfVector

end
-- ==== Proof.KernelValue.lean ====
/-
  What the kernel program leaves in its result array, at the ideal values.

  The run ends with the result array at the last region's output. Reading backwards: the last region writes
  `biasReluRow` of the second aggregation and the second bias laid as a row; the second aggregation is the chain `agg` of
  what the middle region wrote, which is `linear` of `biasReluRow` of the first aggregation and the first bias, against the
  second weight; the first aggregation is `agg` of what the first region wrote, `linear` of the features against the first
  weight. A bias laid as a one-row array acts as the bias vector, so the result is the `network` of the six arguments.
-/
import proofs.«153974_j57397942944071_1_alg».proof.Proof.KernelHost
import proofs.«153974_j57397942944071_1_alg».proof.Proof.Region0
import proofs.«153974_j57397942944071_1_alg».proof.Proof.Region1
import proofs.«153974_j57397942944071_1_alg».proof.Proof.Region2
import proofs.«153974_j57397942944071_1_alg».proof.Proof.RefValue
import proofs.«153974_j57397942944071_1_alg».proof.Proof.LibRowOfVector

set_option maxRecDepth 16384

noncomputable section

namespace Cert.Gcn.KernelValue

open Cert.KernelIdeal Cert.KernelIdeal.Gen Cert.Gcn
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The index vectors, the coefficients and the arguments at each boundary -/

theorem src4 (c : Dev nD) : W4 m ρ c (Proc.devRef .tc main_v3) = srcOf (F := Ideal) (m ((c.tc : Thread nD τ).loc main_arg1)) :=
  (KernelHost.v3_r0 m ρ c).trans (KernelHost.src_entry m ρ c)
theorem dst4 (c : Dev nD) : W4 m ρ c (Proc.devRef .tc main_v6) = dstOf (F := Ideal) (m ((c.tc : Thread nD τ).loc main_arg1)) :=
  (KernelHost.v6_r0 m ρ c).trans (KernelHost.dst_entry m ρ c)
theorem nrm4 (c : Dev nD) : W4 m ρ c (Proc.devRef .tc main_v29) = nrmOf (F := Ideal) (m ((c.tc : Thread nD τ).loc main_arg1)) :=
  (KernelHost.v29_r0 m ρ c).trans (KernelHost.nrm_entry m ρ c)
theorem src6 (c : Dev nD) : W6 m ρ c (Proc.devRef .tc main_v3) = srcOf (F := Ideal) (m ((c.tc : Thread nD τ).loc main_arg1)) :=
  (KernelHost.v3_r1 m ρ c).trans ((KernelHost.v3_s1 m ρ c).trans (src4 m ρ c))
theorem dst6 (c : Dev nD) : W6 m ρ c (Proc.devRef .tc main_v6) = dstOf (F := Ideal) (m ((c.tc : Thread nD τ).loc main_arg1)) :=
  (KernelHost.v6_r1 m ρ c).trans ((KernelHost.v6_s1 m ρ c).trans (dst4 m ρ c))
theorem nrm6 (c : Dev nD) : W6 m ρ c (Proc.devRef .tc main_v29) = nrmOf (F := Ideal) (m ((c.tc : Thread nD τ).loc main_arg1)) :=
  (KernelHost.v29_r1 m ρ c).trans ((KernelHost.v29_s1 m ρ c).trans (nrm4 m ρ c))
theorem bias1_4 (c : Dev nD) : W4 m ρ c (Proc.devRef .tc main_arg3) = (m ((c.tc : Thread nD τ).loc main_arg3)) :=
  (KernelHost.arg3_r0 m ρ c).trans (KernelHost.arg3_entry m ρ c)
theorem weight2_5 (c : Dev nD) : W5 m ρ c (Proc.devRef .tc main_arg4) = (m ((c.tc : Thread nD τ).loc main_arg4)) :=
  (KernelHost.arg4_s1 m ρ c).trans ((KernelHost.arg4_r0 m ρ c).trans (KernelHost.arg4_entry m ρ c))
theorem bias2_6 (c : Dev nD) : W6 m ρ c (Proc.devRef .tc main_arg5) = (m ((c.tc : Thread nD τ).loc main_arg5)) :=
  (KernelHost.arg5_r1 m ρ c).trans ((KernelHost.arg5_s1 m ρ c).trans ((KernelHost.arg5_r0 m ρ c).trans (KernelHost.arg5_entry m ρ c)))

/-- A bias vector recast as a one-row array acts, in `biasReluRow`, as the vector does in `biasRelu`. -/
theorem row_bias (a : FVec Ideal Nodes .f32) (b : FVec Ideal Bias .f32) (h : Bias.ShapeCasts Row) :
    biasReluRow a (shapeCast Row b h) = biasRelu a b :=
  biasReluRow_eq_biasRelu a _ b fun q => RowOfVector.apply b h q

/-! ## Layer by layer -/

/-- The first region writes the first dense product. -/
theorem product1 (c : Dev nD) : W4 m ρ c (Proc.devRef .tc main_v30) = linear (m ((c.tc : Thread nD τ).loc main_arg0)) (m ((c.tc : Thread nD τ).loc main_arg2)) := by
  refine (W4_arr m ρ c 2).trans ((Region0.value (V3 m ρ) c).trans ?_)
  exact congrArg₂ linear (KernelHost.arg0_entry m ρ c) (KernelHost.arg2_entry m ρ c)

/-- The first aggregation. -/
theorem agg1 (c : Dev nD) :
    W5 m ρ c (Proc.devRef .tc main_v43) = agg (F := Ideal) (m ((c.tc : Thread nD τ).loc main_arg1)) (linear (m ((c.tc : Thread nD τ).loc main_arg0)) (m ((c.tc : Thread nD τ).loc main_arg2))) := by
  rw [KernelHost.agg_s1, src4, dst4, nrm4, product1]
  rfl

/-- The first bias as a row. -/
theorem row1 (c : Dev nD) :
    W5 m ρ c (Proc.devRef .tc main_v44) = shapeCast S1x128 (m ((c.tc : Thread nD τ).loc main_arg3)) shapeCasts_S128_S1x128 := by
  rw [KernelHost.row_s1, bias1_4]

/-- The middle region writes the second dense product, of the first layer's output. -/
theorem product2 (c : Dev nD) :
    W6 m ρ c (Proc.devRef .tc main_v45)
      = linear (biasRelu (agg (F := Ideal) (m ((c.tc : Thread nD τ).loc main_arg1)) (linear (m ((c.tc : Thread nD τ).loc main_arg0)) (m ((c.tc : Thread nD τ).loc main_arg2)))) (m ((c.tc : Thread nD τ).loc main_arg3))) (m ((c.tc : Thread nD τ).loc main_arg4)) := by
  refine (W6_arr m ρ c 3).trans ((Region1.value (V5 m ρ) c).trans ?_)
  show linear (biasReluRow (W5 m ρ c (Proc.devRef .tc main_v43)) (W5 m ρ c (Proc.devRef .tc main_v44))) (W5 m ρ c (Proc.devRef .tc main_arg4)) = _
  rw [agg1, row1, weight2_5]
  exact congrArg (fun z => linear z (m ((c.tc : Thread nD τ).loc main_arg4))) (row_bias _ (m ((c.tc : Thread nD τ).loc main_arg3)) shapeCasts_S128_S1x128)

/-- The second aggregation. -/
theorem agg2 (c : Dev nD) :
    W7 m ρ c (Proc.devRef .tc main_v58)
      = agg (F := Ideal) (m ((c.tc : Thread nD τ).loc main_arg1)) (linear (biasRelu (agg (F := Ideal) (m ((c.tc : Thread nD τ).loc main_arg1)) (linear (m ((c.tc : Thread nD τ).loc main_arg0)) (m ((c.tc : Thread nD τ).loc main_arg2)))) (m ((c.tc : Thread nD τ).loc main_arg3))) (m ((c.tc : Thread nD τ).loc main_arg4))) := by
  rw [KernelHost.agg_s2, src6, dst6, nrm6, product2]
  rfl

/-- The second bias as a row. -/
theorem row2 (c : Dev nD) :
    W7 m ρ c (Proc.devRef .tc main_v59) = shapeCast S1x128 (m ((c.tc : Thread nD τ).loc main_arg5)) shapeCasts_S128_S1x128 := by
  rw [KernelHost.row_s2, bias2_6]

/-- THE RESULT: the last boundary's contents at the result array are the network of the six arguments. -/
theorem result (c : Dev nD) :
    W8 m ρ c (Proc.devRef .tc main_v60) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_arr m ρ c 2).trans ((Region2.value (V7 m ρ) c).trans ?_)
  show biasReluRow (W7 m ρ c (Proc.devRef .tc main_v58)) (W7 m ρ c (Proc.devRef .tc main_v59)) = _
  rw [agg2, row2]
  exact row_bias _ (m ((c.tc : Thread nD τ).loc main_arg5)) shapeCasts_S128_S1x128

end Cert.Gcn.KernelValue

end
-- ==== Proof.lean ====
/-
  A two-layer graph convolution over a fixed edge list: three row-tiled kernels (the first dense product; bias, `relu`
  and the second dense product fused; the last bias and `relu`) with the neighbourhood aggregation between them on the
  host, against the same network written with whole-array host operations.

  At the ideal values both programs end with the result array at ONE function of the six arguments,
  `Cert.Gcn.network`: `relu (A (relu (A (x · w1) + b1) · w2) + b2)`, where `A` is the normalised neighbourhood sum. The two
  programs apply the same chain of host operations for `A`, so it is carried as one function and never opened; the
  kernels' products are the same sums over the shared axis as the host's, row block by row block (the narrowing of the
  matrix unit's operands is the identity on the extended reals), and a bias laid as a one-row array acts as the bias
  vector. No law beyond these readings is needed, so the precondition is not used for the values.

  The frames of the two kernel programs are the generated ones; the reference's frame is its run with the result
  dropped; the idealization rewrote nothing.
-/
import proofs.«153974_j57397942944071_1_alg».proof.Defs
import proofs.«153974_j57397942944071_1_alg».proof.Proof.Gen.Kernel
import proofs.«153974_j57397942944071_1_alg».proof.Proof.Gen.Kernel.Frame
import proofs.«153974_j57397942944071_1_alg».proof.Proof.Gen.KernelIdeal
import proofs.«153974_j57397942944071_1_alg».proof.Proof.Gen.KernelIdeal.Frame
import proofs.«153974_j57397942944071_1_alg».proof.Proof.Gen.ReferenceIdeal
import proofs.«153974_j57397942944071_1_alg».proof.Proof.Gen.Pre_finite_inputs
import proofs.«153974_j57397942944071_1_alg».proof.Proof.RefRun
import proofs.«153974_j57397942944071_1_alg».proof.Proof.RefRead
import proofs.«153974_j57397942944071_1_alg».proof.Proof.RefValue
import proofs.«153974_j57397942944071_1_alg».proof.Proof.KernelRun
import proofs.«153974_j57397942944071_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at the network of the arguments, which agree. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5⟩ := hagree c
    rw [Cert.ReferenceIdeal.ReadP.val_main_v65_eq, Cert.Gcn.ref_result, e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
